-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩

abbrev nBuf : Space → Nat
  | .hbm => 63
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics of the two-layer mean-aggregation network, free of either program.

  A layer takes the neighbour mean `M` and the node features `X`, both n × 128 (n = 50000 for the whole graph,
  n = 2000 for one row block), two 128 × 128 weight matrices already transposed for right multiplication and a bias
  row, and returns, at node r and channel j,
      (∑ₖ M[r,k] · Wl[k,j] + ∑ₖ X[r,k] · Wr[k,j]) + b[j].
  The reference adds the bias between the two products; addition of extended reals is commutative and
  associative, so the two groupings agree everywhere, infinities included (`add_bias_comm`).
  A row of the result depends on the same row of `M` and `X` only, so the layer of a row block is the row block of
  the layer (`dense_of_rows`).

  The mean divides each row of the aggregate by the in-degree clamped below at one. One program divides by the
  clamped degree d, the other multiplies by the reciprocal 1 / d. For every extended real d ≠ 0 — and a number
  clamped below at one is never zero — the quotient a / d is by definition a · d⁻¹ and 1 / d is 1 · d⁻¹ = d⁻¹, so
  a · (1 / d) = a / d with no finiteness assumption on a or d (`mean_mul_eq_div`).
-/
import Idealize.ShloMosaic.PureOps.Ideal
import Idealize.ShloMosaic.PureOps.Ideal.Laws
import Idealize.ShloMosaic.Lib.ValueIdx

noncomputable section

open scoped BigOperators

namespace Cert.Sage

open Idealize.ShloMosaic

/-- n nodes × 128 channels -/
abbrev SRows (n : Nat) : Shape := ⟨2, ![n, 128]⟩
/-- weight matrices -/
abbrev SDxD : Shape := ⟨2, ![128, 128]⟩
/-- the bias as a row -/
abbrev S1xD : Shape := ⟨2, ![1, 128]⟩

/-- entry (row of `i`, k) of a node × channel array -/
abbrev rowIdx {n : Nat} (i : (SRows n).Idx) (k : Fin 128) : (SRows n).Idx := fun a => match a with
  | ⟨0, _⟩ => ⟨(i 0).val, (i 0).isLt⟩
  | ⟨1, _⟩ => ⟨k.val, k.isLt⟩
/-- entry (k, column of `i`) of a weight matrix -/
abbrev colIdx {n : Nat} (i : (SRows n).Idx) (k : Fin 128) : SDxD.Idx := fun a => match a with
  | ⟨0, _⟩ => ⟨k.val, k.isLt⟩
  | ⟨1, _⟩ => ⟨(i 1).val, (i 1).isLt⟩
/-- entry (0, column of `i`) of the bias row -/
abbrev biasIdx {n : Nat} (i : (SRows n).Idx) : S1xD.Idx := fun a => match a with
  | ⟨0, _⟩ => ⟨0, Nat.one_pos⟩
  | ⟨1, _⟩ => ⟨(i 1).val, (i 1).isLt⟩

/-- One dense layer, entry by entry: both matrix products first, the bias last. -/
def dense {n : Nat} (M X : (SRows n).Idx → EReal) (Wl Wr : SDxD.Idx → EReal) (b : S1xD.Idx → EReal) : (SRows n).Idx → EReal :=
  fun i => (∑ k : Fin 128, M (rowIdx i k) * Wl (colIdx i k) + ∑ k : Fin 128, X (rowIdx i k) * Wr (colIdx i k)) + b (biasIdx i)

/-- The rectifier against the word of +0.0 (never evaluated: both programs spell the same word). -/
def relu0 {n : Nat} (A : (SRows n).Idx → EReal) : (SRows n).Idx → EReal :=
  fun i => max (A i) (Ideal.ofBits .f32 0x00000000#32)

/-- The layer of some rows is those rows of the layer: entry `j` of the layer over blocks that hold, along row `j`
    and column `j`, what the whole arrays hold along row `i` and column `i`, is entry `i` of the layer over the arrays. -/
theorem dense_of_rows {n n' : Nat} (M X : (SRows n).Idx → EReal) (Wl Wr : SDxD.Idx → EReal) (b : S1xD.Idx → EReal)
    (M' X' : (SRows n').Idx → EReal) (Wl' Wr' : SDxD.Idx → EReal) (b' : S1xD.Idx → EReal)
    (j : (SRows n').Idx) (i : (SRows n).Idx)
    (hM : ∀ k, M' (rowIdx j k) = M (rowIdx i k)) (hX : ∀ k, X' (rowIdx j k) = X (rowIdx i k))
    (hl : ∀ k, Wl' (colIdx j k) = Wl (colIdx i k)) (hr : ∀ k, Wr' (colIdx j k) = Wr (colIdx i k))
    (hb : b' (biasIdx j) = b (biasIdx i)) :
    dense M' X' Wl' Wr' b' j = dense M X Wl Wr b i := by
  unfold dense
  rw [hb]
  simp only [hM, hX, hl, hr]

/-- The rectifier acts entry by entry. -/
theorem relu0_congr {n n' : Nat} (A : (SRows n).Idx → EReal) (A' : (SRows n').Idx → EReal) (j : (SRows n').Idx) (i : (SRows n).Idx)
    (h : A' j = A i) : relu0 A' j = relu0 A i := by
  unfold relu0
  rw [h]

/-- (p + q) + b = (p + b) + q on the extended reals. -/
theorem add_bias_comm (p q b : EReal) : (p + q) + b = (p + b) + q := add_right_comm p q b

/-- The word of 1.0 denotes the real number one. -/
theorem one_word : Ideal.ofBits .f32 0x3F800000#32 = 1 := by
  simp [Ideal.ofBits, Ideal.ieee, -EReal.coe_mul]; norm_num

/-- Multiplying by the reciprocal of a nonzero extended real is dividing by it. -/
theorem mul_one_div (a d : EReal) (hd : d ≠ 0) : a * Ideal.div 1 d = Ideal.div a d := by
  unfold Ideal.div
  rw [if_neg hd, if_neg hd, one_mul]

/-- A number clamped below at one is not zero. -/
theorem max_one_ne_zero (x : EReal) : max x 1 ≠ 0 :=
  (lt_of_lt_of_le zero_lt_one (le_max_right x 1)).ne'

/-- The mean, both ways: the aggregate times the reciprocal of the clamped degree is the aggregate over it. -/
theorem mean_mul_eq_div (a x : EReal) :
    a * Ideal.div (Ideal.ofBits .f32 0x3F800000#32) (max x (Ideal.ofBits .f32 0x3F800000#32))
      = Ideal.div a (max x (Ideal.ofBits .f32 0x3F800000#32)) := by
  rw [one_word]
  exact mul_one_div a _ (max_one_ne_zero x)

end Cert.Sage

end
-- ==== Proof.RefSpec.lean ====
/-
  The reference program's result as mathematics. Its composed term is folded into named pieces — the source and
  destination rows of the edge list, their index columns (a negative source index wrapped by the node count), the
  scatter-added aggregate of gathered rows, the in-degree clamped below at one, the mean as the aggregate over the
  broadcast degree, one convolution (mean · Wlᵀ + bias) + X · Wrᵀ, the rectifier — and each piece that is arithmetic is
  read entry by entry: a convolution is Spec.lean's `dense` layer (the two groupings of the three summands agree on the
  extended reals), the rectifier is `relu0`, and the mean taken by multiplying with the broadcast reciprocal of the
  clamped degree is the mean taken by dividing (the degree is at least one, so never zero). The gather and the
  scatter-add are never opened: both programs apply the same two operations to the same index columns.
-/
import proofs.«147823_j18279380812528_1_alg».proof.Proof.Gen.ReferenceIdeal.Run
import proofs.«147823_j18279380812528_1_alg».proof.Proof.Gen.ReferenceIdeal.Read
import proofs.«147823_j18279380812528_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Sage

open Cert.ReferenceIdeal Cert.ReferenceIdeal.Gen Cert.Sage
open Idealize.ShloMosaic Idealize.ShloMosaic.TcCoe Idealize.ShloMosaic.ValueIdx Idealize.SL.Sem

/-! ## The pieces of the term -/

/-- Row 0 of the edge list: the source node of each edge. -/
def srcRow (e : IVec S2x600000 32) : IVec S600000 32 :=
  shapeCast _ (extractStridedSlice S1x600000 ![0, 0] e slices_S2x600000_S1x600000_0_0) shapeCasts_S1x600000_S600000
/-- Row 1 of the edge list: the destination node of each edge. -/
def dstRow (e : IVec S2x600000 32) : IVec S600000 32 :=
  shapeCast _ (extractStridedSlice S1x600000 ![1, 0] e slices_S2x600000_S1x600000_1_0) shapeCasts_S1x600000_S600000
/-- Source indices as the gather takes them: a negative index wrapped by the node count, in a column. -/
def srcCol (s : IVec S600000 32) : IVec S600000x1 32 :=
  broadcastInDim S600000x1 ![0] bcast_S600000_S600000x1_0 (select (cmpi .slt s (broadcastInDim S600000 ![] bcast_S_S600000 (constantI S_ 32 0#32))) (addi s (broadcastInDim S600000 ![] bcast_S_S600000 (constantI S_ 32 50000#32))) s)
/-- Destination indices in a column. -/
def dstCol (d : IVec S600000 32) : IVec S600000x1 32 :=
  broadcastInDim S600000x1 ![0] bcast_S600000_S600000x1_0 d
/-- The sum over incoming edges of the source rows of `X`, from the two index rows. -/
def aggOf (X : FVec Ideal S50000x128 .f32) (s d : IVec S600000 32) : FVec Ideal S50000x128 .f32 :=
  Host.scatterAdd (F := Ideal) scatter_S50000x128_S600000x1_S600000x128_1_0_0_1 (broadcastInDim S50000x128 ![] bcast_S_S50000x128 (constant (F := Ideal) S_ .f32 0x00000000#32)) (dstCol d) (Host.gather gather_S50000x128_S600000x1_S600000x128_1_0_n_n_0_1_1128 X (srcCol s))
/-- The same from the edge list. -/
def agg (X : FVec Ideal S50000x128 .f32) (e : IVec S2x600000 32) : FVec Ideal S50000x128 .f32 := aggOf X (srcRow e) (dstRow e)
/-- The in-degree of every node (a scatter-add of ones). -/
def cnt (e : IVec S2x600000 32) : FVec Ideal S50000 .f32 :=
  Host.scatterAdd (F := Ideal) scatter_S50000_S600000x1_S600000_n_0_0_1 (broadcastInDim S50000 ![] bcast_S_S50000 (constant (F := Ideal) S_ .f32 0x00000000#32)) (dstCol (dstRow e)) (broadcastInDim S600000 ![] bcast_S_S600000 (constant (F := Ideal) S_ .f32 0x3F800000#32))
/-- One at every node. -/
def ones : FVec Ideal S50000 .f32 := broadcastInDim S50000 ![] bcast_S_S50000 (constant (F := Ideal) S_ .f32 0x3F800000#32)
/-- The in-degree clamped below at one. -/
def deg (e : IVec S2x600000 32) : FVec Ideal S50000 .f32 := maximumf (cnt e) ones
/-- A per-node number as a column. -/
def nodeCol (d : FVec Ideal S50000 .f32) : FVec Ideal S50000x1 .f32 := broadcastInDim S50000x1 ![0] bcast_S50000_S50000x1_0 d
/-- A column repeated along the 128 channels. -/
def colAlong (d : FVec Ideal S50000x1 .f32) : FVec Ideal S50000x128 .f32 := broadcastInDim S50000x128 ![0, 1] bcast_S50000x1_S50000x128_0_1 d
/-- The neighbour mean, by division. -/
def meanDiv (X : FVec Ideal S50000x128 .f32) (e : IVec S2x600000 32) : FVec Ideal S50000x128 .f32 := Host.divf (agg X e) (colAlong (nodeCol (deg e)))
/-- The reciprocal of the clamped degree, as a column. -/
def invCol (e : IVec S2x600000 32) : FVec Ideal S50000x1 .f32 := nodeCol (Host.divf ones (deg e))
/-- An array with each row scaled by a column's entry. -/
def scaleRows (Y : FVec Ideal S50000x128 .f32) (col : FVec Ideal S50000x1 .f32) : FVec Ideal S50000x128 .f32 := mulf Y (colAlong col)
/-- The neighbour mean, by multiplication with the reciprocal of the clamped degree. -/
def meanMul (X : FVec Ideal S50000x128 .f32) (e : IVec S2x600000 32) : FVec Ideal S50000x128 .f32 := scaleRows (agg X e) (invCol e)
/-- The bias as a row. -/
def biasRow (b : FVec Ideal S128 .f32) : FVec Ideal S1x128 .f32 := broadcastInDim S1x128 ![1] bcast_S128_S1x128_1 b
/-- A weight matrix transposed. -/
def tr (W : FVec Ideal S128x128 .f32) : FVec Ideal S128x128 .f32 := transpose S128x128 [1, 0] W transposes_S128x128_S128x128_1_0
/-- One convolution as the reference groups it: (mean · Wlᵀ + bias) + X · Wrᵀ. -/
def conv (M X : FVec Ideal S50000x128 .f32) (Wl : FVec Ideal S128x128 .f32) (bl : FVec Ideal S128 .f32) (Wr : FVec Ideal S128x128 .f32) : FVec Ideal S50000x128 .f32 :=
  addf (addf (Host.dotGeneral dot_S50000x128_S128x128_S50000x128_1_0_0_1_n_n none M (tr Wl)) (broadcastInDim S50000x128 ![0, 1] bcast_S1x128_S50000x128_0_1 (biasRow bl))) (Host.dotGeneral dot_S50000x128_S128x128_S50000x128_1_0_0_1_n_n none X (tr Wr))
/-- The rectifier as the reference spells it. -/
def relu (Y : FVec Ideal S50000x128 .f32) : FVec Ideal S50000x128 .f32 :=
  maximumf Y (broadcastInDim S50000x128 ![] bcast_S_S50000x128 (constant (F := Ideal) S_ .f32 0x00000000#32))
/-- The hidden features. -/
def hidden (x : FVec Ideal S50000x128 .f32) (e : IVec S2x600000 32) (W1l : FVec Ideal S128x128 .f32) (b1l : FVec Ideal S128 .f32) (W1r : FVec Ideal S128x128 .f32) : FVec Ideal S50000x128 .f32 :=
  relu (conv (meanDiv x e) x W1l b1l W1r)
/-- The network's output. -/
def out (x : FVec Ideal S50000x128 .f32) (e : IVec S2x600000 32) (W1l : FVec Ideal S128x128 .f32) (b1l : FVec Ideal S128 .f32) (W1r : FVec Ideal S128x128 .f32) (W2l : FVec Ideal S128x128 .f32) (b2l : FVec Ideal S128 .f32) (W2r : FVec Ideal S128x128 .f32) : FVec Ideal S50000x128 .f32 :=
  conv (meanDiv (hidden x e W1l b1l W1r) e) (hidden x e W1l b1l W1r) W2l b2l W2r

/-- The run's composed term is the network's output of the arguments. -/
theorem res_eq (m : (ℓ : Loc nD τ sig) → Buf (Elt Ideal) ℓ) (c : Dev nD) :
    Cert.ReferenceIdeal.Value.res_main_v58 (F := Ideal) m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v58 out hidden relu conv meanDiv colAlong nodeCol deg ones cnt agg aggOf dstCol srcCol dstRow srcRow biasRow tr
  rfl

/-! ## The arithmetic pieces, entry by entry -/

/-- A column repeated along the channels, read at an entry (r, j), is the column's entry (r, 0). -/
theorem colAlong_apply (y : FVec Ideal S50000x1 .f32) (i : S50000x128.Idx) :
    colAlong y i = y (Cert.ReferenceIdeal.Read.idx_main_v21 i) := by
  unfold colAlong
  exact broadcastInDim_apply _ bcast_S50000x1_S50000x128_0_1 y i (Cert.ReferenceIdeal.Read.idx_main_v21 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- A per-node number as a column, read at (r, 0), is node r's number. -/
theorem nodeCol_apply (d : FVec Ideal S50000 .f32) (k : S50000x1.Idx) :
    nodeCol d k = d (Cert.ReferenceIdeal.Read.idx_main_v20 k) := by
  unfold nodeCol
  exact broadcastInDim_apply _ bcast_S50000_S50000x1_0 d k (Cert.ReferenceIdeal.Read.idx_main_v20 k) (fun a => match a with
    | ⟨0, _⟩ => by show (k 0).val = if (50000 : Nat) = 1 then 0 else (k 0).val; rw [if_neg (by decide)])

/-- The node of an entry. -/
abbrev nodeIdx (i : S50000x128.Idx) : S50000.Idx :=
  Cert.ReferenceIdeal.Read.idx_main_v20 (Cert.ReferenceIdeal.Read.idx_main_v21 i)

/-- A per-node number repeated along the channels, read at an entry, is the node's number. -/
theorem along_apply (d : FVec Ideal S50000 .f32) (i : S50000x128.Idx) : colAlong (nodeCol d) i = d (nodeIdx i) :=
  (colAlong_apply (nodeCol d) i).trans (nodeCol_apply d _)

/-- One at every node reads the value of the word of 1.0. -/
theorem ones_apply (k : S50000.Idx) : ones k = Ideal.ofBits .f32 0x3F800000#32 :=
  broadcastInDim_apply _ bcast_S_S50000 (constant (F := Ideal) S_ .f32 0x3F800000#32) k (fun a => a.elim0) (fun a => a.elim0)

/-- A host quotient at an entry is the quotient of the entries. -/
theorem hostDivf_apply {s : Shape} (a b : FVec Ideal s .f32) (i : s.Idx) : Host.divf a b i = Ideal.div (a i) (b i) := rfl

/-- The two means agree: the degree is clamped below at one, so its reciprocal times the aggregate is the quotient. -/
theorem meanMul_eq (X : FVec Ideal S50000x128 .f32) (e : IVec S2x600000 32) : meanMul X e = meanDiv X e := by
  unfold meanMul meanDiv scaleRows invCol deg
  generalize agg X e = Y
  generalize cnt e = C
  funext i
  rw [mulf_apply, hostDivf_apply, along_apply, along_apply, hostDivf_apply, maximumf_apply, ones_apply]
  exact mean_mul_eq_div _ _

/-- The reference's matrix product read at an entry: ∑ₖ l[r,k] · w[k,j]. -/
theorem dot_rows_apply (l : FVec Ideal S50000x128 .f32) (w : FVec Ideal S128x128 .f32) (i : S50000x128.Idx) :
    Host.dotGeneral dot_S50000x128_S128x128_S50000x128_1_0_0_1_n_n none l w i = ∑ k : Fin 128, l (rowIdx (n := 50000) i k) * w (colIdx (n := 50000) i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = rowIdx (n := 50000) i k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : dot_S50000x128_S128x128_S50000x128_1_0_0_1_n_n.rhsIdx i ((ValueIdx.contrEquiv1 dot_S50000x128_S128x128_S50000x128_1_0_0_1_n_n 128 rfl rfl).symm k) = colIdx (n := 50000) i k := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-- The bias row repeated down the nodes, read at an entry. -/
theorem bias_nodes_apply (b : FVec Ideal S1x128 .f32) (i : S50000x128.Idx) :
    (broadcastInDim S50000x128 ![0, 1] bcast_S1x128_S50000x128_0_1 b : FVec Ideal S50000x128 .f32) i = b (biasIdx (n := 50000) i) :=
  broadcastInDim_apply _ bcast_S1x128_S50000x128_0_1 b i (biasIdx (n := 50000) i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A convolution is the dense layer of its operands, the weights transposed and the bias as a row. -/
theorem conv_eq_dense (M X : FVec Ideal S50000x128 .f32) (Wl : FVec Ideal S128x128 .f32) (bl : FVec Ideal S128 .f32) (Wr : FVec Ideal S128x128 .f32) :
    conv M X Wl bl Wr = dense (n := 50000) M X (tr Wl) (tr Wr) (biasRow bl) := by
  funext i
  unfold conv dense
  rw [addf_apply, addf_apply, dot_rows_apply, dot_rows_apply, bias_nodes_apply]
  exact (add_bias_comm _ _ _).symm

/-- The reference's rectifier is `relu0`. -/
theorem relu_eq (Y : FVec Ideal S50000x128 .f32) : relu Y = relu0 (n := 50000) Y := by
  funext i
  unfold relu relu0
  rw [maximumf_apply]
  exact congrArg (max (Y i)) (broadcastInDim_apply _ bcast_S_S50000x128 (constant (F := Ideal) S_ .f32 0x00000000#32) i (fun a => a.elim0) (fun a => a.elim0))

end Cert.ReferenceIdeal.Sage

end
-- ==== Proof.Block.lean ====
/-
  What one grid point's body computes, as mathematics: each layer's store payload, read entry by entry at the ideal
  instance, is the dense layer (Spec.lean's `dense`) of the point's five blocks — the neighbour-mean block, the
  feature block, the two transposed weight matrices and the bias row —, rectified in the first layer and not in the
  second. A change of float format is the identity on extended reals, a reshape to the same shape is the identity, a
  matrix product into a zero accumulator is the plain sum over the contracted axis, and the bias row is repeated down
  the rows.
-/
import proofs.«147823_j18279380812528_1_alg».proof.Proof.Gen.KernelIdeal.Skeleton
import proofs.«147823_j18279380812528_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Sage

open Cert.KernelIdeal Cert.KernelIdeal.Gen Cert.Sage
open Idealize.ShloMosaic Idealize.ShloMosaic.TcCoe Idealize.ShloMosaic.ValueIdx

/-! ## The block matrix product as a sum over the 128 input channels -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, j) of a block product into the zero accumulator: ∑ₖ l[r,k] · w[k,j]. -/
theorem matmul_block_apply {φ₁ φ₂ : FTy} (l : FVec Ideal S2000x128 φ₁) (w : FVec Ideal S128x128 φ₂) (i : S2000x128.Idx) :
    matmul dot_S2000x128_S128x128_S2000x128_1_0_0_1_n_n none l w (constant S2000x128 .f32 0x00000000#32) i
      = ∑ k : Fin 128, l (rowIdx (n := 2000) i k) * w (colIdx (n := 2000) i k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = rowIdx (n := 2000) i k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx i ((ValueIdx.contrEquiv1 dot_S2000x128_S128x128_S2000x128_1_0_0_1_n_n 128 rfl rfl).symm k) = colIdx (n := 2000) i k := funext fun a => Fin.ext (by
    match a with
    | ⟨0, _⟩ => exact (rhs_axis0 _ _).trans hk
    | ⟨1, _⟩ => exact rhs_axis1 _ _)
  rw [el, er]

/-- The bias row repeated down the 2000 rows of a block, read at an entry. -/
theorem bias_rows_apply (b : FVec Ideal S1x128 .f32) (i : S2000x128.Idx) :
    broadcastTo S2000x128 b broadcasts_S1x128_S2000x128 i = b (biasIdx (n := 2000) i) :=
  broadcastTo_apply b broadcasts_S1x128_S2000x128 i (biasIdx (n := 2000) i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-! ## The two payloads -/

/-- The first layer's stored block: the rectified dense layer of the point's blocks. -/
theorem pay0_eq (x0 x1 : Vec Ideal S2000x128 .f32) (wl wr : Vec Ideal S128x128 .f32) (b : Vec Ideal S1x128 .f32) :
    k0_pay1 (F := Ideal) x0 x1 wl wr b = relu0 (n := 2000) (dense (n := 2000) x0 x1 wl wr b) := by
  funext i
  unfold k0_pay1
  simp only [shapeCast_self]
  rw [maximumf_apply, addf_apply, addf_apply, matmul_block_apply, matmul_block_apply, bias_rows_apply]
  rfl

/-- The second layer's stored block: the dense layer of the point's blocks. -/
theorem pay1_eq (x0 x1 : Vec Ideal S2000x128 .f32) (wl wr : Vec Ideal S128x128 .f32) (b : Vec Ideal S1x128 .f32) :
    k1_pay1 (F := Ideal) x0 x1 wl wr b = dense (n := 2000) x0 x1 wl wr b := by
  funext i
  unfold k1_pay1
  simp only [shapeCast_self]
  rw [addf_apply, addf_apply, matmul_block_apply, matmul_block_apply, bias_rows_apply]
  rfl

end Cert.KernelIdeal.Sage

end
-- ==== Proof.Region0.lean ====
/-
  The first layer's region, read as a value. The grid has 25 points; point t takes rows 2000·t … 2000·t + 1999 of the
  neighbour mean and of the node features, the whole of the two weight matrices and of the bias row, and writes back rows
  2000·t … 2000·t + 1999 of the result. A row of the dense layer depends on the same row of its two row operands only, so
  what point t writes back is block t of the dense layer of the WHOLE arrays, rectified; the 25 blocks tile the 50000 rows
  (row r lies in block r / 2000), so after the region the result array holds that layer of the arrays the region found.
-/
import proofs.«147823_j18279380812528_1_alg».proof.Proof.Gen.KernelIdeal.Frame
import proofs.«147823_j18279380812528_1_alg».proof.Proof.Block
import Idealize.ShloMosaic.Lib.Pipeline.Value
import Idealize.ShloMosaic.Lib.ValueIdx
import Idealize.ShloMosaic.Lib.Tactic

set_option maxRecDepth 16384

noncomputable section

open scoped BigOperators

namespace Cert.KernelIdeal.Sage.R0

open Cert.KernelIdeal Cert.KernelIdeal.Gen Cert.KernelIdeal.Sage Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row operands and the result move down with the point, the weights and the
    bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block as entries of its array -/

/-- The neighbour-mean block at point t is rows 2000·t … of the array. -/
theorem mean_block_apply (c : Dev nD) (t : Fin cfg0.N) (y : S2000x128.Idx) (k : S50000x128.Idx)
    (h0 : (k 0).val = t.val * 2000 + (y 0).val) (h1 : (k 1).val = (y 1).val) :
    (iblk0 V c 0 t : Vec Ideal S2000x128 .f32) y = (V c main_v24 : S50000x128.Idx → Elt Ideal .f32) k := by
  obtain ⟨e0, e1, -⟩ := idx_facts t
  unfold iblk0
  rw [View.read_apply]
  show V c main_v24 _ = V c main_v24 _
  refine congrArg (V c main_v24) (funext fun a => Fin.ext ?_)
  match a with
  | ⟨0, _⟩ => show win0_0.index t (0 : Fin 2) * 2000 + 1 * (y 0).val = (k 0).val; rw [e0, h0]; omega
  | ⟨1, _⟩ => show win0_0.index t (1 : Fin 2) * 128 + 1 * (y 1).val = (k 1).val; rw [e1, h1]; omega

/-- The feature block at point t is rows 2000·t … of the array. -/
theorem feat_block_apply (c : Dev nD) (t : Fin cfg0.N) (y : S2000x128.Idx) (k : S50000x128.Idx)
    (h0 : (k 0).val = t.val * 2000 + (y 0).val) (h1 : (k 1).val = (y 1).val) :
    (iblk0 V c 1 t : Vec Ideal S2000x128 .f32) y = (V c main_arg0 : S50000x128.Idx → Elt Ideal .f32) k := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * (y 0).val = (k 0).val; rw [e0, h0]; omega
  | ⟨1, _⟩ => show win0_1.index t (1 : Fin 2) * 128 + 1 * (y 1).val = (k 1).val; rw [e1, h1]; omega

/-- The left weight block is the whole matrix at every point. -/
theorem wl_block_apply (c : Dev nD) (t : Fin cfg0.N) (y k : S128x128.Idx)
    (h0 : (k 0).val = (y 0).val) (h1 : (k 1).val = (y 1).val) :
    (iblk0 V c 2 t : Vec Ideal S128x128 .f32) y = (V c main_v25 : S128x128.Idx → Elt Ideal .f32) k := by
  obtain ⟨-, -, -, -, e0, e1, -⟩ := idx_facts t
  unfold iblk0
  rw [View.read_apply]
  show V c main_v25 _ = V c main_v25 _
  refine congrArg (V c main_v25) (funext fun a => Fin.ext ?_)
  match a with
  | ⟨0, _⟩ => show win0_2.index t (0 : Fin 2) * 128 + 1 * (y 0).val = (k 0).val; rw [e0, h0]; omega
  | ⟨1, _⟩ => show win0_2.index t (1 : Fin 2) * 128 + 1 * (y 1).val = (k 1).val; rw [e1, h1]; omega

/-- The bias block is the whole row at every point. -/
theorem bias_block_apply (c : Dev nD) (t : Fin cfg0.N) (y k : S1x128.Idx)
    (h0 : (k 0).val = (y 0).val) (h1 : (k 1).val = (y 1).val) :
    (iblk0 V c 3 t : Vec Ideal S1x128 .f32) y = (V c main_v27 : S1x128.Idx → Elt Ideal .f32) k := by
  obtain ⟨-, -, -, -, -, -, e0, e1, -⟩ := idx_facts t
  unfold iblk0
  rw [View.read_apply]
  show V c main_v27 _ = V c main_v27 _
  refine congrArg (V c main_v27) (funext fun a => Fin.ext ?_)
  match a with
  | ⟨0, _⟩ => show win0_3.index t (0 : Fin 2) * 1 + 1 * (y 0).val = (k 0).val; rw [e0, h0]; omega
  | ⟨1, _⟩ => show win0_3.index t (1 : Fin 2) * 128 + 1 * (y 1).val = (k 1).val; rw [e1, h1]; omega

/-- The right weight block is the whole matrix at every point. -/
theorem wr_block_apply (c : Dev nD) (t : Fin cfg0.N) (y k : S128x128.Idx)
    (h0 : (k 0).val = (y 0).val) (h1 : (k 1).val = (y 1).val) :
    (iblk0 V c 4 t : Vec Ideal S128x128 .f32) y = (V c main_v26 : S128x128.Idx → Elt Ideal .f32) k := by
  obtain ⟨-, -, -, -, -, -, -, -, e0, e1, -⟩ := idx_facts t
  unfold iblk0
  rw [View.read_apply]
  show V c main_v26 _ = V c main_v26 _
  refine congrArg (V c main_v26) (funext fun a => Fin.ext ?_)
  match a with
  | ⟨0, _⟩ => show win0_4.index t (0 : Fin 2) * 128 + 1 * (y 0).val = (k 0).val; rw [e0, h0]; omega
  | ⟨1, _⟩ => show win0_4.index t (1 : Fin 2) * 128 + 1 * (y 1).val = (k 1).val; rw [e1, h1]; omega

/-! ## What a point writes back, the cover, the array after the region -/

/-- The layer of the arrays the region finds. -/
abbrev layer (c : Dev nD) : S50000x128.Idx → Elt Ideal .f32 :=
  relu0 (n := 50000) (dense (n := 50000) (V c main_v24) (V c main_arg0) (V c main_v25) (V c main_v26) (V c main_v27))

/-- Point t writes back block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [pay0_eq]
  obtain ⟨-, -, -, -, -, -, -, -, -, -, e0, e1⟩ := idx_facts t
  funext j
  rw [View.read_apply]
  have r0 : ((((cfg0.win 5).blk t).view.emb j) 0).val = t.val * 2000 + (j 0).val := by
    show win0_5.index t (0 : Fin 2) * 2000 + 1 * (j 0).val = _; rw [e0]; omega
  have r1 : ((((cfg0.win 5).blk t).view.emb j) 1).val = (j 1).val := by
    show win0_5.index t (1 : Fin 2) * 128 + 1 * (j 1).val = _; rw [e1]; omega
  refine relu0_congr (n := 50000) (n' := 2000) _ _ j _ ?_
  refine dense_of_rows (n := 50000) (n' := 2000) _ _ _ _ _ _ _ _ _ _ j _ (fun k => ?_) (fun k => ?_) (fun k => ?_) (fun k => ?_) ?_
  · exact mean_block_apply V c t _ _ r0 rfl
  · exact feat_block_apply V c t _ _ r0 rfl
  · exact wl_block_apply V c t _ _ rfl r1
  · exact wr_block_apply V c t _ _ rfl r1
  · exact bias_block_apply V c t _ _ rfl r1

/-- An index is in point t's result block iff each coordinate is in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Row r of the result lies in the block of point r / 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < cfg0.N := lt_of_lt_of_eq (by omega : (i 0).val / 2000 < 25) N_0.symm
  obtain ⟨-, -, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-- After the region the result array holds the layer of the arrays the region found. -/
theorem final (c : Dev nD) : (dat0 V c).arrAt 5 cfg0.N = layer V c :=
  (dat0 V c).arrAt_eq_of_cover 5 (layer V c) (fun t _ => flushed_eq V c t) cover

end Cert.KernelIdeal.Sage.R0

end
-- ==== Proof.Region1.lean ====
/-
  The second layer's region, read as a value. The grid has 25 points; point t takes rows 2000·t … 2000·t + 1999 of the
  neighbour mean and of the node features, the whole of the two weight matrices and of the bias row, and writes back rows
  2000·t … 2000·t + 1999 of the result. A row of the dense layer depends on the same row of its two row operands only, so
  what point t writes back is block t of the dense layer of the WHOLE arrays; the 25 blocks tile the 50000 rows
  (row r lies in block r / 2000), so after the region the result array holds that layer of the arrays the region found.
-/
import proofs.«147823_j18279380812528_1_alg».proof.Proof.Gen.KernelIdeal.Frame
import proofs.«147823_j18279380812528_1_alg».proof.Proof.Block
import Idealize.ShloMosaic.Lib.Pipeline.Value
import Idealize.ShloMosaic.Lib.ValueIdx
import Idealize.ShloMosaic.Lib.Tactic

set_option maxRecDepth 16384

noncomputable section

open scoped BigOperators

namespace Cert.KernelIdeal.Sage.R1

open Cert.KernelIdeal Cert.KernelIdeal.Gen Cert.KernelIdeal.Sage Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row operands and the result move down with the point, the weights and the
    bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block as entries of its array -/

/-- The neighbour-mean block at point t is rows 2000·t … of the array. -/
theorem mean_block_apply (c : Dev nD) (t : Fin cfg1.N) (y : S2000x128.Idx) (k : S50000x128.Idx)
    (h0 : (k 0).val = t.val * 2000 + (y 0).val) (h1 : (k 1).val = (y 1).val) :
    (iblk1 V c 0 t : Vec Ideal S2000x128 .f32) y = (V c main_v40 : S50000x128.Idx → Elt Ideal .f32) k := by
  obtain ⟨e0, e1, -⟩ := idx_facts t
  unfold iblk1
  rw [View.read_apply]
  show V c main_v40 _ = V c main_v40 _
  refine congrArg (V c main_v40) (funext fun a => Fin.ext ?_)
  match a with
  | ⟨0, _⟩ => show win1_0.index t (0 : Fin 2) * 2000 + 1 * (y 0).val = (k 0).val; rw [e0, h0]; omega
  | ⟨1, _⟩ => show win1_0.index t (1 : Fin 2) * 128 + 1 * (y 1).val = (k 1).val; rw [e1, h1]; omega

/-- The feature block at point t is rows 2000·t … of the array. -/
theorem feat_block_apply (c : Dev nD) (t : Fin cfg1.N) (y : S2000x128.Idx) (k : S50000x128.Idx)
    (h0 : (k 0).val = t.val * 2000 + (y 0).val) (h1 : (k 1).val = (y 1).val) :
    (iblk1 V c 1 t : Vec Ideal S2000x128 .f32) y = (V c main_v28 : S50000x128.Idx → Elt Ideal .f32) k := by
  obtain ⟨-, -, e0, e1, -⟩ := idx_facts t
  unfold iblk1
  rw [View.read_apply]
  show V c main_v28 _ = V c main_v28 _
  refine congrArg (V c main_v28) (funext fun a => Fin.ext ?_)
  match a with
  | ⟨0, _⟩ => show win1_1.index t (0 : Fin 2) * 2000 + 1 * (y 0).val = (k 0).val; rw [e0, h0]; omega
  | ⟨1, _⟩ => show win1_1.index t (1 : Fin 2) * 128 + 1 * (y 1).val = (k 1).val; rw [e1, h1]; omega

/-- The left weight block is the whole matrix at every point. -/
theorem wl_block_apply (c : Dev nD) (t : Fin cfg1.N) (y k : S128x128.Idx)
    (h0 : (k 0).val = (y 0).val) (h1 : (k 1).val = (y 1).val) :
    (iblk1 V c 2 t : Vec Ideal S128x128 .f32) y = (V c main_v41 : S128x128.Idx → Elt Ideal .f32) k := by
  obtain ⟨-, -, -, -, e0, e1, -⟩ := idx_facts t
  unfold iblk1
  rw [View.read_apply]
  show V c main_v41 _ = V c main_v41 _
  refine congrArg (V c main_v41) (funext fun a => Fin.ext ?_)
  match a with
  | ⟨0, _⟩ => show win1_2.index t (0 : Fin 2) * 128 + 1 * (y 0).val = (k 0).val; rw [e0, h0]; omega
  | ⟨1, _⟩ => show win1_2.index t (1 : Fin 2) * 128 + 1 * (y 1).val = (k 1).val; rw [e1, h1]; omega

/-- The bias block is the whole row at every point. -/
theorem bias_block_apply (c : Dev nD) (t : Fin cfg1.N) (y k : S1x128.Idx)
    (h0 : (k 0).val = (y 0).val) (h1 : (k 1).val = (y 1).val) :
    (iblk1 V c 3 t : Vec Ideal S1x128 .f32) y = (V c main_v43 : S1x128.Idx → Elt Ideal .f32) k := by
  obtain ⟨-, -, -, -, -, -, e0, e1, -⟩ := idx_facts t
  unfold iblk1
  rw [View.read_apply]
  show V c main_v43 _ = V c main_v43 _
  refine congrArg (V c main_v43) (funext fun a => Fin.ext ?_)
  match a with
  | ⟨0, _⟩ => show win1_3.index t (0 : Fin 2) * 1 + 1 * (y 0).val = (k 0).val; rw [e0, h0]; omega
  | ⟨1, _⟩ => show win1_3.index t (1 : Fin 2) * 128 + 1 * (y 1).val = (k 1).val; rw [e1, h1]; omega

/-- The right weight block is the whole matrix at every point. -/
theorem wr_block_apply (c : Dev nD) (t : Fin cfg1.N) (y k : S128x128.Idx)
    (h0 : (k 0).val = (y 0).val) (h1 : (k 1).val = (y 1).val) :
    (iblk1 V c 4 t : Vec Ideal S128x128 .f32) y = (V c main_v42 : S128x128.Idx → Elt Ideal .f32) k := by
  obtain ⟨-, -, -, -, -, -, -, -, e0, e1, -⟩ := idx_facts t
  unfold iblk1
  rw [View.read_apply]
  show V c main_v42 _ = V c main_v42 _
  refine congrArg (V c main_v42) (funext fun a => Fin.ext ?_)
  match a with
  | ⟨0, _⟩ => show win1_4.index t (0 : Fin 2) * 128 + 1 * (y 0).val = (k 0).val; rw [e0, h0]; omega
  | ⟨1, _⟩ => show win1_4.index t (1 : Fin 2) * 128 + 1 * (y 1).val = (k 1).val; rw [e1, h1]; omega

/-! ## What a point writes back, the cover, the array after the region -/

/-- The layer of the arrays the region finds. -/
abbrev layer (c : Dev nD) : S50000x128.Idx → Elt Ideal .f32 :=
  dense (n := 50000) (V c main_v40) (V c main_v28) (V c main_v41) (V c main_v42) (V c main_v43)

/-- Point t writes back block t of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [pay1_eq]
  obtain ⟨-, -, -, -, -, -, -, -, -, -, e0, e1⟩ := idx_facts t
  funext j
  rw [View.read_apply]
  have r0 : ((((cfg1.win 5).blk t).view.emb j) 0).val = t.val * 2000 + (j 0).val := by
    show win1_5.index t (0 : Fin 2) * 2000 + 1 * (j 0).val = _; rw [e0]; omega
  have r1 : ((((cfg1.win 5).blk t).view.emb j) 1).val = (j 1).val := by
    show win1_5.index t (1 : Fin 2) * 128 + 1 * (j 1).val = _; rw [e1]; omega
  refine dense_of_rows (n := 50000) (n' := 2000) _ _ _ _ _ _ _ _ _ _ j _ (fun k => ?_) (fun k => ?_) (fun k => ?_) (fun k => ?_) ?_
  · exact mean_block_apply V c t _ _ r0 rfl
  · exact feat_block_apply V c t _ _ r0 rfl
  · exact wl_block_apply V c t _ _ rfl r1
  · exact wr_block_apply V c t _ _ rfl r1
  · exact bias_block_apply V c t _ _ rfl r1

/-- An index is in point t's result block iff each coordinate is in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v44).slice (win1_5.rect t)).set ↔ _
  rw [View.set_slice_whole, Rect.mem_set_unit]
  exact Iff.rfl

/-- Row r of the result lies in the block of point r / 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := lt_of_lt_of_eq (by omega : (i 0).val / 2000 < 25) N_1.symm
  obtain ⟨-, -, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

/-- After the region the result array holds the layer of the arrays the region found. -/
theorem final (c : Dev nD) : (dat1 V c).arrAt 5 cfg1.N = layer V c :=
  (dat1 V c).arrAt_eq_of_cover 5 (layer V c) (fun t _ => flushed_eq V c t) cover

end Cert.KernelIdeal.Sage.R1

end
-- ==== Proof.KHost.lean ====
/-
  The two stretches of host operations of the kernel's program, read as values over ANY contents `W` of the buffers
  they start from. Before the first layer's region: the edge list's source and destination rows, the reciprocal of the
  clamped in-degree as a column, the neighbour mean of the features by multiplication with that column, the two
  weight matrices transposed and the bias reshaped to a row. Between the regions: the same mean of the hidden features,
  from the rows and the column the first stretch left, and the second layer's weights and bias.
  The bias reshaped from [128] to [1, 128] is the bias broadcast into that row shape: entry (0, j) of either is b[j].
-/
import proofs.«147823_j18279380812528_1_alg».proof.Proof.Gen.KernelIdeal.Launch
import proofs.«147823_j18279380812528_1_alg».proof.Proof.RefSpec
import Idealize.ShloMosaic.Lib.StableHlo.Run
import Idealize.ShloMosaic.Lib.Pipeline.Value
import Idealize.ShloMosaic.Lib.ValueLayout

set_option maxRecDepth 16384

noncomputable section

namespace Cert.KernelIdeal.Sage.Host

open Cert.KernelIdeal Cert.KernelIdeal.Gen
open Idealize.ShloMosaic Idealize.ShloMosaic.TcCoe Idealize.ShloMosaic.ValueIdx Idealize.ShloMosaic.StableHlo Idealize.SL.Sem

variable (W : Valuation τ sig (Elt Ideal))

/-! ## Before the first region -/

theorem s0_src : StableHlo.after hostOps0 W (Proc.devRef .tc main_v1) = Cert.ReferenceIdeal.Sage.srcRow (W (Proc.devRef .tc main_arg1)) := by
  after_results_simp
  rfl
theorem s0_dst : StableHlo.after hostOps0 W (Proc.devRef .tc main_v3) = Cert.ReferenceIdeal.Sage.dstRow (W (Proc.devRef .tc main_arg1)) := by
  after_results_simp
  rfl
theorem s0_inv : StableHlo.after hostOps0 W (Proc.devRef .tc main_v12) = Cert.ReferenceIdeal.Sage.invCol (W (Proc.devRef .tc main_arg1)) := by
  after_results_simp
  rfl
theorem s0_mean : StableHlo.after hostOps0 W (Proc.devRef .tc main_v24) = Cert.ReferenceIdeal.Sage.meanMul (W (Proc.devRef .tc main_arg0)) (W (Proc.devRef .tc main_arg1)) := by
  after_results_simp
  rfl
theorem s0_wl : StableHlo.after hostOps0 W (Proc.devRef .tc main_v25) = Cert.ReferenceIdeal.Sage.tr (W (Proc.devRef .tc main_arg2)) := by
  after_results_simp
  rfl
theorem s0_wr : StableHlo.after hostOps0 W (Proc.devRef .tc main_v26) = Cert.ReferenceIdeal.Sage.tr (W (Proc.devRef .tc main_arg4)) := by
  after_results_simp
  rfl
theorem s0_bias : StableHlo.after hostOps0 W (Proc.devRef .tc main_v27) = shapeCast S1x128 (W (Proc.devRef .tc main_arg3)) shapeCasts_S128_S1x128 := by
  after_results_simp
  rfl
theorem s0_arg0 : StableHlo.after hostOps0 W (Proc.devRef .tc main_arg0) = W (Proc.devRef .tc main_arg0) := by
  after_results_simp
theorem s0_arg1 : StableHlo.after hostOps0 W (Proc.devRef .tc main_arg1) = W (Proc.devRef .tc main_arg1) := by
  after_results_simp
theorem s0_arg2 : StableHlo.after hostOps0 W (Proc.devRef .tc main_arg2) = W (Proc.devRef .tc main_arg2) := by
  after_results_simp
theorem s0_arg3 : StableHlo.after hostOps0 W (Proc.devRef .tc main_arg3) = W (Proc.devRef .tc main_arg3) := by
  after_results_simp
theorem s0_arg4 : StableHlo.after hostOps0 W (Proc.devRef .tc main_arg4) = W (Proc.devRef .tc main_arg4) := by
  after_results_simp
theorem s0_arg5 : StableHlo.after hostOps0 W (Proc.devRef .tc main_arg5) = W (Proc.devRef .tc main_arg5) := by
  after_results_simp
theorem s0_arg6 : StableHlo.after hostOps0 W (Proc.devRef .tc main_arg6) = W (Proc.devRef .tc main_arg6) := by
  after_results_simp
theorem s0_arg7 : StableHlo.after hostOps0 W (Proc.devRef .tc main_arg7) = W (Proc.devRef .tc main_arg7) := by
  after_results_simp

/-! ## Between the regions -/

theorem s1_mean : StableHlo.after hostOps1 W (Proc.devRef .tc main_v40)
    = Cert.ReferenceIdeal.Sage.scaleRows (Cert.ReferenceIdeal.Sage.aggOf (W (Proc.devRef .tc main_v28)) (W (Proc.devRef .tc main_v1)) (W (Proc.devRef .tc main_v3))) (W (Proc.devRef .tc main_v12)) := by
  after_results_simp
  rfl
theorem s1_hidden : StableHlo.after hostOps1 W (Proc.devRef .tc main_v28) = W (Proc.devRef .tc main_v28) := by
  after_results_simp
theorem s1_wl : StableHlo.after hostOps1 W (Proc.devRef .tc main_v41) = Cert.ReferenceIdeal.Sage.tr (W (Proc.devRef .tc main_arg5)) := by
  after_results_simp
  rfl
theorem s1_wr : StableHlo.after hostOps1 W (Proc.devRef .tc main_v42) = Cert.ReferenceIdeal.Sage.tr (W (Proc.devRef .tc main_arg7)) := by
  after_results_simp
  rfl
theorem s1_bias : StableHlo.after hostOps1 W (Proc.devRef .tc main_v43) = shapeCast S1x128 (W (Proc.devRef .tc main_arg6)) shapeCasts_S128_S1x128 := by
  after_results_simp
  rfl

/-! ## The bias as a row, either way -/

/-- Reshaping the bias to a row and broadcasting it into the row shape give the same row. -/
theorem bias_reshape_eq (b : FVec Ideal S128 .f32) : shapeCast S1x128 b shapeCasts_S128_S1x128 = Cert.ReferenceIdeal.Sage.biasRow b := by
  funext i
  obtain ⟨u, j, rfl⟩ : ∃ (u : Fin 1) (j : Fin 128), i = ix2 u j := ⟨i 0, i 1, eq_ix2 i⟩
  rw [shapeCast_a_1a_apply]
  unfold Cert.ReferenceIdeal.Sage.biasRow
  exact (broadcastInDim_apply _ Cert.ReferenceIdeal.Gen.bcast_S128_S1x128_1 b (ix2 u j) (ix1 j) (fun a => match a with
    | ⟨0, _⟩ => by show j.val = if (128 : Nat) = 1 then 0 else j.val; rw [if_neg (by decide)])).symm

end Cert.KernelIdeal.Sage.Host

end
-- ==== Proof.KValue.lean ====
/-
  The kernel's program read as a value. Its run ends with the result array at the contents the last segment boundary
  gives it; walking the boundaries backwards — the second region's layer of what the second host stretch prepared,
  that stretch's mean of the hidden features the first region left, the first region's rectified layer of what the
  first host stretch prepared from the arguments — the result is the reference's network output of the arguments:
  each region's layer is the reference's convolution (Spec.lean's `dense`), and the mean by multiplication with the
  reciprocal degree is the mean by division.
-/
import proofs.«147823_j18279380812528_1_alg».proof.Proof.MainRun
import proofs.«147823_j18279380812528_1_alg».proof.Proof.Region0
import proofs.«147823_j18279380812528_1_alg».proof.Proof.Region1
import proofs.«147823_j18279380812528_1_alg».proof.Proof.KHost

set_option maxRecDepth 16384

noncomputable section

namespace Cert.KernelIdeal.Sage

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The launch contents of the arguments -/

theorem w0_arg0 (c : Dev nD) : W0 m ρ c (Proc.devRef .tc main_arg0) = m ((c.tc : Thread nD τ).loc main_arg0) := rfl
theorem w0_arg1 (c : Dev nD) : W0 m ρ c (Proc.devRef .tc main_arg1) = m ((c.tc : Thread nD τ).loc main_arg1) := rfl
theorem w0_arg2 (c : Dev nD) : W0 m ρ c (Proc.devRef .tc main_arg2) = m ((c.tc : Thread nD τ).loc main_arg2) := rfl
theorem w0_arg3 (c : Dev nD) : W0 m ρ c (Proc.devRef .tc main_arg3) = m ((c.tc : Thread nD τ).loc main_arg3) := rfl
theorem w0_arg4 (c : Dev nD) : W0 m ρ c (Proc.devRef .tc main_arg4) = m ((c.tc : Thread nD τ).loc main_arg4) := rfl
theorem w0_arg5 (c : Dev nD) : W0 m ρ c (Proc.devRef .tc main_arg5) = m ((c.tc : Thread nD τ).loc main_arg5) := rfl
theorem w0_arg6 (c : Dev nD) : W0 m ρ c (Proc.devRef .tc main_arg6) = m ((c.tc : Thread nD τ).loc main_arg6) := rfl
theorem w0_arg7 (c : Dev nD) : W0 m ρ c (Proc.devRef .tc main_arg7) = m ((c.tc : Thread nD τ).loc main_arg7) := rfl

/-! ## The first region -/

/-- The hidden features: what the first region leaves is the reference's hidden layer of the arguments. -/
theorem hidden_eq (c : Dev nD) :
    R0.layer (V1 m ρ) c = Cert.ReferenceIdeal.Sage.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.ReferenceIdeal.Sage.hidden
  rw [Cert.ReferenceIdeal.Sage.relu_eq, Cert.ReferenceIdeal.Sage.conv_eq_dense, ← Cert.ReferenceIdeal.Sage.meanMul_eq]
  show relu0 (n := 50000) (dense (n := 50000) (StableHlo.after hostOps0 (W0 m ρ c) (Proc.devRef .tc main_v24)) (StableHlo.after hostOps0 (W0 m ρ c) (Proc.devRef .tc main_arg0))
    (StableHlo.after hostOps0 (W0 m ρ c) (Proc.devRef .tc main_v25)) (StableHlo.after hostOps0 (W0 m ρ c) (Proc.devRef .tc main_v26)) (StableHlo.after hostOps0 (W0 m ρ c) (Proc.devRef .tc main_v27))) = _
  rw [Host.s0_mean, Host.s0_arg0, Host.s0_wl, Host.s0_wr, Host.s0_bias, Host.bias_reshape_eq,
    w0_arg0, w0_arg1, w0_arg2, w0_arg3, w0_arg4]

/-! ## What the second host stretch starts from -/

theorem w2_hidden (c : Dev nD) : W2 m ρ c (Proc.devRef .tc main_v28) = Cert.ReferenceIdeal.Sage.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans ((R0.final (V1 m ρ) c).trans (hidden_eq m ρ c))
theorem w2_src (c : Dev nD) : W2 m ρ c (Proc.devRef .tc main_v1) = Cert.ReferenceIdeal.Sage.srcRow (m ((c.tc : Thread nD τ).loc main_arg1)) :=
  (W2_of_ne m ρ c main_v1 (by decide)).trans ((Host.s0_src (W0 m ρ c)).trans (by rw [w0_arg1]))
theorem w2_dst (c : Dev nD) : W2 m ρ c (Proc.devRef .tc main_v3) = Cert.ReferenceIdeal.Sage.dstRow (m ((c.tc : Thread nD τ).loc main_arg1)) :=
  (W2_of_ne m ρ c main_v3 (by decide)).trans ((Host.s0_dst (W0 m ρ c)).trans (by rw [w0_arg1]))
theorem w2_inv (c : Dev nD) : W2 m ρ c (Proc.devRef .tc main_v12) = Cert.ReferenceIdeal.Sage.invCol (m ((c.tc : Thread nD τ).loc main_arg1)) :=
  (W2_of_ne m ρ c main_v12 (by decide)).trans ((Host.s0_inv (W0 m ρ c)).trans (by rw [w0_arg1]))
theorem w2_arg5 (c : Dev nD) : W2 m ρ c (Proc.devRef .tc main_arg5) = (m ((c.tc : Thread nD τ).loc main_arg5)) :=
  (W2_of_ne m ρ c main_arg5 (by decide)).trans ((Host.s0_arg5 (W0 m ρ c)).trans (w0_arg5 m ρ c))
theorem w2_arg6 (c : Dev nD) : W2 m ρ c (Proc.devRef .tc main_arg6) = (m ((c.tc : Thread nD τ).loc main_arg6)) :=
  (W2_of_ne m ρ c main_arg6 (by decide)).trans ((Host.s0_arg6 (W0 m ρ c)).trans (w0_arg6 m ρ c))
theorem w2_arg7 (c : Dev nD) : W2 m ρ c (Proc.devRef .tc main_arg7) = (m ((c.tc : Thread nD τ).loc main_arg7)) :=
  (W2_of_ne m ρ c main_arg7 (by decide)).trans ((Host.s0_arg7 (W0 m ρ c)).trans (w0_arg7 m ρ c))

/-! ## The second region -/

/-- The result: what the second region leaves is the reference's output of the arguments. -/
theorem out_eq (c : Dev nD) :
    R1.layer (V3 m ρ) c = Cert.ReferenceIdeal.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Sage.out
  rw [Cert.ReferenceIdeal.Sage.conv_eq_dense, ← Cert.ReferenceIdeal.Sage.meanMul_eq]
  show dense (n := 50000) (StableHlo.after hostOps1 (W2 m ρ c) (Proc.devRef .tc main_v40)) (StableHlo.after hostOps1 (W2 m ρ c) (Proc.devRef .tc main_v28))
    (StableHlo.after hostOps1 (W2 m ρ c) (Proc.devRef .tc main_v41)) (StableHlo.after hostOps1 (W2 m ρ c) (Proc.devRef .tc main_v42)) (StableHlo.after hostOps1 (W2 m ρ c) (Proc.devRef .tc main_v43)) = _
  rw [Host.s1_mean, Host.s1_hidden, Host.s1_wl, Host.s1_wr, Host.s1_bias, Host.bias_reshape_eq,
    w2_hidden, w2_src, w2_dst, w2_inv, w2_arg5, w2_arg6, w2_arg7]
  rfl

/-- The result array after the run. -/
theorem result_eq (c : Dev nD) : W4 m ρ c (Proc.devRef .tc main_v44) = Cert.ReferenceIdeal.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_arr m ρ c 5).trans ((R1.final (V3 m ρ) c).trans (out_eq m ρ c))

/-- The kernel's program runs, ends with the network's output of its arguments in the result array, and leaves
    the arguments as launched. -/
theorem run : θ_run defs (onTc (τ := τ) (main (F := Ideal))) ⟨m, fun _ => 0, ρ⟩ (fun r => ∀ c : Dev nD,
      r.2.mem ((c.tc : Thread nD τ).loc main_v44) = Cert.ReferenceIdeal.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_main m ρ)

end Cert.KernelIdeal.Sage

end
-- ==== Proof.lean ====
/-
  The certificate of a two-layer mean-aggregation graph network (each layer: the neighbour mean times one weight
  matrix, plus the node's own features times another, plus a bias; a rectifier between the layers) whose dense part
  runs as two row-tiled kernel regions, against its plain reference.

  Over the extended reals both programs compute the same array. The gather of source rows and the scatter-add
  onto destination rows are the same host operations on the same index columns in both. The reference divides the
  aggregate by the in-degree clamped below at one; the kernel's program multiplies by the reciprocal of that degree:
  a number at least one is never zero, so a · (1 / d) = a · d⁻¹ = a / d, at the infinities too. The reference adds the
  bias between its two matrix products and the kernel after both: addition of extended reals is commutative and
  associative. A matrix product of a row block is the row block of the product, and the 25 row blocks tile the rows.
  No finiteness of the inputs is used.

  The three frames: the word-level and the idealized kernel programs by their generated frame certificates, the
  reference by its generated run. The idealization rewrote nothing, so there is nothing to preserve.
-/
import proofs.«147823_j18279380812528_1_alg».proof.Defs
import proofs.«147823_j18279380812528_1_alg».proof.Proof.Gen.Kernel
import proofs.«147823_j18279380812528_1_alg».proof.Proof.Gen.Kernel.Frame
import proofs.«147823_j18279380812528_1_alg».proof.Proof.Gen.KernelIdeal
import proofs.«147823_j18279380812528_1_alg».proof.Proof.Gen.KernelIdeal.Frame
import proofs.«147823_j18279380812528_1_alg».proof.Proof.Gen.ReferenceIdeal
import proofs.«147823_j18279380812528_1_alg».proof.Proof.Gen.Pre_finite_inputs
import proofs.«147823_j18279380812528_1_alg».proof.Proof.Gen.ReferenceIdeal.Run
import proofs.«147823_j18279380812528_1_alg».proof.Proof.RefSpec
import proofs.«147823_j18279380812528_1_alg».proof.Proof.KValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the network's output of the arguments. -/
theorem algebraic : Cert.algebraic_KernelIdeal_ReferenceIdeal := by
  intro m ρ m' ρ' _ hagree
  refine ⟨fun c => Cert.ReferenceIdeal.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Sage.res_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
